-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 68
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000, .i32⟩
  | .hbm, ⟨37, _⟩ => ⟨S1x1600000, .i32⟩
  | .hbm, ⟨38, _⟩ => ⟨S1600000, .i32⟩
  | .hbm, ⟨39, _⟩ => ⟨S1700000, .i32⟩
  | .hbm, ⟨40, _⟩ => ⟨S1x1600000, .i32⟩
  | .hbm, ⟨41, _⟩ => ⟨S1600000, .i32⟩
  | .hbm, ⟨42, _⟩ => ⟨S1700000, .i32⟩
  | .hbm, ⟨43, _⟩ => ⟨S_, .f32⟩
  | .hbm, ⟨44, _⟩ => ⟨S1700000, .f32⟩
  | .hbm, ⟨45, _⟩ => ⟨S_, .f32⟩
  | .hbm, ⟨46, _⟩ => ⟨S100000, .f32⟩
  | .hbm, ⟨47, _⟩ => ⟨S1700000x1, .i32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000, .f32⟩
  | .hbm, ⟨68, _⟩ => ⟨S1700000, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .i1⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The layer as mathematics, over the extended reals.

  A row x of 128 entries is first divided by max(√(Σ x²), ε₁) (ε₁ the f32 nearest 1e-12), then each entry k is
  standardised, (x̂ₖ − meanₖ) · (varₖ + ε₂)^(-1/2) · γₖ + βₖ (ε₂ the f32 nearest 1e-5): `bnAt`.  A linear map of
  that row against a 128×128 matrix is `lin`.  The graph part is carried as an unopened function of the
  first linear map's whole result (it is the same chain of gathers and scatter-adds on both sides); the result
  is `leaky` of (scattered + bias) + residual, entry by entry, the slope the f32 nearest 0.01.
-/
import Idealize.ShloMosaic.Lib.ValueIdx
import Idealize.ShloMosaic.PureOps.Ideal.Laws

noncomputable section

open scoped BigOperators

namespace GcnLayer

open Idealize.ShloMosaic Idealize.ShloMosaic.ValueIdx

/-- A row of 128 extended reals. -/
abbrev Row := Fin 128 → EReal
/-- An a×b array of extended reals. -/
abbrev Mat (a b : Nat) := (⟨2, ![a, b]⟩ : Shape).Idx → EReal

/-- The row's Euclidean norm, kept away from zero. -/
def rowNorm (xr : Row) : EReal :=
  max (Ideal.sqrt (∑ j : Fin 128, xr j * xr j)) (Ideal.ofBits .f32 0x2B8CBCCC#32)

/-- Entry k of the normalised and standardised row. -/
def bnAt (xr mean var gamma beta : Row) (k : Fin 128) : EReal :=
  (Ideal.div (xr k) (rowNorm xr) - mean k) * Ideal.rsqrt (var k + Ideal.ofBits .f32 0x3727C5AC#32) * gamma k + beta k

/-- Entry q of the standardised row times a 128×128 matrix. -/
def lin (xr mean var gamma beta : Row) (Wm : Mat 128 128) (q : Fin 128) : EReal :=
  ∑ k : Fin 128, bnAt xr mean var gamma beta k * Wm (ix2 k q)

/-- The leaky rectifier: s where 0 ≤ s, else slope · s. -/
def leaky (s : Ideal .f32) : Ideal .f32 :=
  Scalar.select (FloatOps.cmpf .oge s (FloatOps.ofBits .f32 0x00000000#32)) s
    (FloatOps.mulf (FloatOps.ofBits .f32 0x3C23D70A#32) s)

/-- Row p of an array of 128 columns. -/
def rowOf {n : Nat} (x : Mat n 128) (p : Fin n) : Row := fun k => x (ix2 p k)
/-- The one row of a 1×128 array. -/
def row1 (v : Mat 1 128) : Row := fun k => v (ix2 (0 : Fin 1) k)
/-- A vector of 128 entries as a row. -/
def rowV (v : (⟨1, ![128]⟩ : Shape).Idx → EReal) : Row := fun k => v (ix1 k)

/-- The first linear map of every standardised row: an n×128 array. -/
def linAll {n : Nat} (x : Mat n 128) (Wm : Mat 128 128) (mean var gamma beta : Row) : Mat n 128 :=
  fun i => lin (rowOf x (i 0)) mean var gamma beta Wm (i 1)

/-- The residual branch: the second linear map of every standardised row plus its bias. -/
def residAll {n : Nat} (x : Mat n 128) (Wm : Mat 128 128) (mean var gamma beta bias : Row) : Mat n 128 :=
  fun i => lin (rowOf x (i 0)) mean var gamma beta Wm (i 1) + bias (i 1)

/-- The last stage: (scattered + bias) + residual through the leaky rectifier, entry by entry. -/
def combine {n : Nat} (s r : Mat n 128) (bias : Row) : Mat n 128 :=
  fun i => leaky ((s i + bias (i 1)) + r i)

theorem linAll_apply {n : Nat} (x : Mat n 128) (Wm : Mat 128 128) (mean var gamma beta : Row) (p : Fin n) (q : Fin 128) :
    linAll x Wm mean var gamma beta (ix2 p q) = lin (rowOf x p) mean var gamma beta Wm q := rfl

theorem residAll_apply {n : Nat} (x : Mat n 128) (Wm : Mat 128 128) (mean var gamma beta bias : Row) (p : Fin n) (q : Fin 128) :
    residAll x Wm mean var gamma beta bias (ix2 p q) = lin (rowOf x p) mean var gamma beta Wm q + bias q := rfl

theorem combine_apply {n : Nat} (s r : Mat n 128) (bias : Row) (p : Fin n) (q : Fin 128) :
    combine s r bias (ix2 p q) = leaky ((s (ix2 p q) + bias q) + r (ix2 p q)) := rfl

end GcnLayer

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.BodyValue.lean ====
/-
  What the two kernel bodies compute, entry by entry, over the extended reals.

  First body, on a block of rows: entry (r, k) of the standardised block is `bnAt` of row r; each matrix product
  into a zero accumulator is, at (r, q), the sum over k of that entry times the weight (k, q) — the changes of
  float format are the identity —, so the two stored blocks are `linAll` and `residAll` of the block.
  Second body: (s + bias) + r through the leaky rectifier.
-/
import proofs.«156173_j35983236006067_1_alg».proof.Proof.Gen.KernelIdeal.Skeleton
import proofs.«156173_j35983236006067_1_alg».proof.Proof.Spec
import proofs.«156173_j35983236006067_1_alg».proof.Proof.LibPlainDot
import proofs.«156173_j35983236006067_1_alg».proof.Proof.LibKeepdims
import proofs.«156173_j35983236006067_1_alg».proof.Proof.LibRowSum
import Idealize.ShloMosaic.Lib.ValueLayout
import Idealize.ShloMosaic.Lib.Pipeline.Value

noncomputable section

open scoped BigOperators

namespace Cert.KernelIdeal.BodyValue

open Idealize.ShloMosaic Idealize.ShloMosaic.ValueIdx Cert.KernelIdeal Cert.KernelIdeal.Gen GcnLayer

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl

/-- Entry (r, k) of the standardised block is the standardised entry k of the block's row r. -/
theorem pay2_apply (v0 : Vec Ideal S5000x128 .f32) (v9 v14 v20 v24 : Vec Ideal S1x128 .f32) (r : Fin 5000) (k : Fin 128) :
    k0_pay2 (F := Ideal) v0 v9 v14 v20 v24 (ix2 r k) = bnAt (rowOf v0 r) (row1 v14) (row1 v9) (row1 v20) (row1 v24) k := by
  have hcol : ∀ v6 : FVec Ideal S5000x1 .f32,
      broadcastTo S5000x128 v6 broadcasts_S5000x1_S5000x128 (ix2 r k) = v6 (ix2 r (0 : Fin 1)) :=
    fun v6 => KeepdimsLayout.broadcastTo_a1_ab_apply v6 _ r k
  have hrow : ∀ v : FVec Ideal S1x128 .f32,
      broadcastTo S5000x128 v broadcasts_S1x128_S5000x128 (ix2 r k) = v (ix2 (0 : Fin 1) k) :=
    fun v => broadcastTo_1b_ab_apply v _ r k
  have hcast : ∀ v2 : FVec Ideal S5000 .f32,
      shapeCast S5000x1 v2 shapeCasts_S5000_S5000x1 (ix2 r (0 : Fin 1)) = v2 (ix1 r) :=
    fun v2 => KeepdimsLayout.shapeCast_a_a1_apply v2 _ r 0
  have hself : ∀ v : FVec Ideal S1x128 .f32, shapeCast S1x128 v shapeCasts_S1x128_S1x128 = v :=
    fun v => shapeCast_self v _
  have hsum : ∀ v1 : FVec Ideal S5000x128 .f32,
      multiReduction .add [1] S5000 v1 0x00000000#32 reduces_S5000x128_S5000 (.inl rfl) rfl (ix1 r)
        = ∑ j : Fin 128, v1 (ix2 r j) :=
    fun v1 => RowSum.multiReduction_apply v1 _ _ _ _ r
  unfold k0_pay2
  simp only [hself, truncf_apply, addf_apply, mulf_apply, subf_apply, divf_apply, hrow, hcol, maximumf_apply,
    sqrt_apply, rsqrt_apply, hcast, hsum, broadcast_apply]
  rfl

/-- The first product's block: at (r, q) the sum over k of the standardised entry k of row r times W (k, q). -/
theorem pay3_apply (v0 : Vec Ideal S5000x128 .f32) (v9 v14 v20 v24 : Vec Ideal S1x128 .f32) (v29 : Vec Ideal S128x128 .f32)
    (r : Fin 5000) (q : Fin 128) :
    k0_pay3 (F := Ideal) v0 v9 v14 v20 v24 v29 (ix2 r q)
      = lin (rowOf v0 r) (row1 v14) (row1 v9) (row1 v20) (row1 v24) v29 q := by
  unfold k0_pay3
  refine (PlainDot.matmul_zero_apply (d := dot_S5000x128_S128x128_S5000x128_1_0_0_1_n_n) ⟨rfl, rfl, rfl, rfl, rfl, rfl⟩
    none (k0_pay2 (F := Ideal) v0 v9 v14 v20 v24) (truncf .bf16 v29 bitsLt_bf16_f32) r q).trans ?_
  unfold lin
  exact Finset.sum_congr rfl fun k _ => congrArg₂ (· * ·) (pay2_apply v0 v9 v14 v20 v24 r k) rfl

/-- The second product's block. -/
theorem pay4_apply (v0 : Vec Ideal S5000x128 .f32) (v9 v14 v20 v24 : Vec Ideal S1x128 .f32) (v31 : Vec Ideal S128x128 .f32)
    (r : Fin 5000) (q : Fin 128) :
    k0_pay4 (F := Ideal) v0 v9 v14 v20 v24 v31 (ix2 r q)
      = lin (rowOf v0 r) (row1 v14) (row1 v9) (row1 v20) (row1 v24) v31 q := by
  unfold k0_pay4
  refine (PlainDot.matmul_zero_apply (d := dot_S5000x128_S128x128_S5000x128_1_0_0_1_n_n) ⟨rfl, rfl, rfl, rfl, rfl, rfl⟩
    none (k0_pay2 (F := Ideal) v0 v9 v14 v20 v24) (truncf .bf16 v31 bitsLt_bf16_f32) r q).trans ?_
  unfold lin
  exact Finset.sum_congr rfl fun k _ => congrArg₂ (· * ·) (pay2_apply v0 v9 v14 v20 v24 r k) rfl

/-- The residual bias broadcast along the rows. -/
theorem pay5_apply (v35 : Vec Ideal S1x128 .f32) (r : Fin 5000) (q : Fin 128) :
    k0_pay5 (F := Ideal) v35 (ix2 r q) = row1 v35 q := by
  unfold k0_pay5
  refine (broadcastTo_1b_ab_apply _ broadcasts_S1x128_S5000x128 r q).trans ?_
  rw [shapeCast_self]
  rfl

/-- The first stored block is the first linear map of the block's rows. -/
theorem xw_block (v0 : Vec Ideal S5000x128 .f32) (v9 v14 v20 v24 : Vec Ideal S1x128 .f32) (v29 : Vec Ideal S128x128 .f32) :
    k0_pay3 (F := Ideal) v0 v9 v14 v20 v24 v29 = linAll v0 v29 (row1 v14) (row1 v9) (row1 v20) (row1 v24) := by
  funext j
  obtain ⟨r, q, rfl⟩ : ∃ (r : Fin 5000) (q : Fin 128), j = ix2 r q := ⟨j 0, j 1, eq_ix2 j⟩
  exact pay3_apply v0 v9 v14 v20 v24 v29 r q

/-- The second stored block is the residual branch of the block's rows. -/
theorem resid_block (v0 : Vec Ideal S5000x128 .f32) (v9 v14 v20 v24 v35 : Vec Ideal S1x128 .f32) (v31 : Vec Ideal S128x128 .f32) :
    k0_pay1 (F := Ideal) (k0_pay4 v0 v9 v14 v20 v24 v31) (k0_pay5 v35)
      = residAll v0 v31 (row1 v14) (row1 v9) (row1 v20) (row1 v24) (row1 v35) := by
  funext j
  obtain ⟨r, q, rfl⟩ : ∃ (r : Fin 5000) (q : Fin 128), j = ix2 r q := ⟨j 0, j 1, eq_ix2 j⟩
  unfold k0_pay1
  show k0_pay4 (F := Ideal) v0 v9 v14 v20 v24 v31 (ix2 r q) + k0_pay5 (F := Ideal) v35 (ix2 r q) = _
  rw [pay4_apply, pay5_apply]
  rfl

/-- The combine body's block. -/
theorem out_block (v0 v6 : Vec Ideal S5000x128 .f32) (v2 : Vec Ideal S1x128 .f32) :
    k1_pay1 (F := Ideal) v0 v2 v6 = combine v0 v6 (row1 v2) := by
  funext j
  obtain ⟨r, q, rfl⟩ : ∃ (r : Fin 5000) (q : Fin 128), j = ix2 r q := ⟨j 0, j 1, eq_ix2 j⟩
  have hrow : ∀ v : FVec Ideal S1x128 .f32,
      broadcastTo S5000x128 v broadcasts_S1x128_S5000x128 (ix2 r q) = v (ix2 (0 : Fin 1) q) :=
    fun v => broadcastTo_1b_ab_apply v _ r q
  have hself : ∀ v : FVec Ideal S1x128 .f32, shapeCast S1x128 v shapeCasts_S1x128_S1x128 = v :=
    fun v => shapeCast_self v _
  have hself2 : ∀ v : FVec Ideal S5000x128 .f32, shapeCast S5000x128 v shapeCasts_S5000x128_S5000x128 = v :=
    fun v => shapeCast_self v _
  unfold k1_pay1
  simp only [hself, hself2, select_apply, cmpf_apply, mulf_apply, addf_apply, hrow, broadcast_apply]
  rfl

end Cert.KernelIdeal.BodyValue

end
-- ==== Proof.Region0.lean ====
/-
  The preprocess region's two output arrays, for any contents the region is entered with.

  Point t of the 20-point grid reads rows 5000·t … 5000·t + 4999 of x, the two whole weight matrices and the five
  one-row parameter arrays, and writes the same rows of its two results.  A row's standardised form and its two
  linear maps depend on that row alone, so block t of each result is block t of the whole-array function
  (`linAll`, `residAll`), and the 20 blocks cover each result.
-/
import proofs.«156173_j35983236006067_1_alg».proof.Proof.Gen.KernelIdeal.Frame
import proofs.«156173_j35983236006067_1_alg».proof.Proof.BodyValue
import Idealize.ShloMosaic.Lib.Pipeline.Value

set_option maxRecDepth 16384

noncomputable section

namespace Cert.KernelIdeal.PreprocessRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x and the two outputs sit at block (t, 0), every other window at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- What point t writes back to the first result is block t of the first linear map of the whole arrays. -/
theorem flushed8_eq (c : Dev nD) (t : Fin cfg0.N) :
    (dat0 V c).flushed 8 t = ((cfg0.win 8).blk t).view.read (Elt Ideal)
      (linAll (n := 100000) (V c main_arg0) (V c main_arg2) (row1 (V c main_v0)) (row1 (V c main_v1)) (row1 (V c main_v2)) (row1 (V c main_v3))) := by
  show (cfg0.win 8).cut (grid0.coords t) ((dat0 V c).after 8 t) = _
  rw [after0_8]
  unfold out0_8
  rw [View.canon_unit_zero hz]
  simp only [View.ld_unit_zero (S := S5000x128) hz, View.ld_unit_zero (S := S1x128) hz, View.ld_unit_zero (S := S128x128) hz]
  rw [BodyValue.xw_block]
  obtain ⟨x0, x1, w10, w11, w20, w21, m0, m1, v0, v1, g0, g1, b0, b1, s0, s1, o80, o81, o90, o91⟩ := idx_facts t
  funext j
  have hj0 : (j 0).val < 5000 := (j 0).isLt
  have hj1 : (j 1).val < 128 := (j 1).isLt
  have hx : rowOf (n := 5000) (iblk0 V c 0 t) (j 0) = rowOf (n := 100000) (V c main_arg0) ((((cfg0.win 8).blk t).view.emb j) 0) := by
    funext k
    show V c main_arg0 (((cfg0.win 0).blk t).view.emb (ix2 (j 0) k)) = V c main_arg0 (ix2 ((((cfg0.win 8).blk t).view.emb j) 0) k)
    refine congrArg (V c main_arg0) ?_
    funext a; apply Fin.ext
    match a with
    | ⟨0, _⟩ => show win0_0.index t (0 : Fin 2) * 5000 + 1 * (j 0).val = win0_8.index t (0 : Fin 2) * 5000 + 1 * (j 0).val; omega
    | ⟨1, _⟩ => show win0_0.index t (1 : Fin 2) * 128 + 1 * k.val = k.val; omega
  have hq : (j 1 : Fin 128) = (((cfg0.win 8).blk t).view.emb j) 1 := by
    apply Fin.ext
    show (j 1).val = win0_8.index t (1 : Fin 2) * 128 + 1 * (j 1).val; omega
  have hmean : row1 (iblk0 V c 3 t) = row1 (V c main_v0) := by
    funext k
    show V c main_v0 (((cfg0.win 3).blk t).view.emb (ix2 (0 : Fin 1) k)) = V c main_v0 (ix2 (0 : Fin 1) k)
    refine congrArg (V c main_v0) ?_
    funext a; apply Fin.ext
    match a with
    | ⟨0, _⟩ => show win0_3.index t (0 : Fin 2) * 1 + 1 * 0 = 0; omega
    | ⟨1, _⟩ => show win0_3.index t (1 : Fin 2) * 128 + 1 * k.val = k.val; omega
  have hvar : row1 (iblk0 V c 4 t) = row1 (V c main_v1) := by
    funext k
    show V c main_v1 (((cfg0.win 4).blk t).view.emb (ix2 (0 : Fin 1) k)) = V c main_v1 (ix2 (0 : Fin 1) k)
    refine congrArg (V c main_v1) ?_
    funext a; apply Fin.ext
    match a with
    | ⟨0, _⟩ => show win0_4.index t (0 : Fin 2) * 1 + 1 * 0 = 0; omega
    | ⟨1, _⟩ => show win0_4.index t (1 : Fin 2) * 128 + 1 * k.val = k.val; omega
  have hgamma : row1 (iblk0 V c 5 t) = row1 (V c main_v2) := by
    funext k
    show V c main_v2 (((cfg0.win 5).blk t).view.emb (ix2 (0 : Fin 1) k)) = V c main_v2 (ix2 (0 : Fin 1) k)
    refine congrArg (V c main_v2) ?_
    funext a; apply Fin.ext
    match a with
    | ⟨0, _⟩ => show win0_5.index t (0 : Fin 2) * 1 + 1 * 0 = 0; omega
    | ⟨1, _⟩ => show win0_5.index t (1 : Fin 2) * 128 + 1 * k.val = k.val; omega
  have hbeta : row1 (iblk0 V c 6 t) = row1 (V c main_v3) := by
    funext k
    show V c main_v3 (((cfg0.win 6).blk t).view.emb (ix2 (0 : Fin 1) k)) = V c main_v3 (ix2 (0 : Fin 1) k)
    refine congrArg (V c main_v3) ?_
    funext a; apply Fin.ext
    match a with
    | ⟨0, _⟩ => show win0_6.index t (0 : Fin 2) * 1 + 1 * 0 = 0; omega
    | ⟨1, _⟩ => show win0_6.index t (1 : Fin 2) * 128 + 1 * k.val = k.val; omega
  have hW : (iblk0 V c 1 t : Mat 128 128) = V c main_arg2 := by
    funext y
    show V c main_arg2 (((cfg0.win 1).blk t).view.emb y) = V c main_arg2 y
    refine congrArg (V c main_arg2) ?_
    funext a; apply Fin.ext
    have hy0 : (y 0).val < 128 := (y 0).isLt
    have hy1 : (y 1).val < 128 := (y 1).isLt
    match a with
    | ⟨0, _⟩ => show win0_1.index t (0 : Fin 2) * 128 + 1 * (y 0).val = (y 0).val; omega
    | ⟨1, _⟩ => show win0_1.index t (1 : Fin 2) * 128 + 1 * (y 1).val = (y 1).val; omega
  show lin (rowOf (n := 5000) (iblk0 V c 0 t) (j 0)) (row1 (iblk0 V c 3 t)) (row1 (iblk0 V c 4 t)) (row1 (iblk0 V c 5 t)) (row1 (iblk0 V c 6 t))
        (iblk0 V c 1 t : Mat 128 128) (j 1 : Fin 128)
      = lin (rowOf (n := 100000) (V c main_arg0) ((((cfg0.win 8).blk t).view.emb j) 0)) (row1 (V c main_v0)) (row1 (V c main_v1)) (row1 (V c main_v2)) (row1 (V c main_v3))
        (V c main_arg2) ((((cfg0.win 8).blk t).view.emb j) 1)
  rw [hx, hmean, hvar, hgamma, hbeta, hW, ← hq]

/-- What point t writes back to the second result is block t of the residual branch of the whole arrays. -/
theorem flushed9_eq (c : Dev nD) (t : Fin cfg0.N) :
    (dat0 V c).flushed 9 t = ((cfg0.win 9).blk t).view.read (Elt Ideal)
      (residAll (n := 100000) (V c main_arg0) (V c main_arg8) (row1 (V c main_v0)) (row1 (V c main_v1)) (row1 (V c main_v2)) (row1 (V c main_v3)) (row1 (V c main_v4))) := by
  show (cfg0.win 9).cut (grid0.coords t) ((dat0 V c).after 9 t) = _
  rw [after0_9]
  unfold out0_9
  rw [View.canon_unit_zero hz]
  simp only [View.ld_unit_zero (S := S5000x128) hz, View.ld_unit_zero (S := S1x128) hz, View.ld_unit_zero (S := S128x128) hz]
  rw [BodyValue.resid_block]
  obtain ⟨x0, x1, w10, w11, w20, w21, m0, m1, v0, v1, g0, g1, b0, b1, s0, s1, o80, o81, o90, o91⟩ := idx_facts t
  funext j
  have hj0 : (j 0).val < 5000 := (j 0).isLt
  have hj1 : (j 1).val < 128 := (j 1).isLt
  have hx : rowOf (n := 5000) (iblk0 V c 0 t) (j 0) = rowOf (n := 100000) (V c main_arg0) ((((cfg0.win 9).blk t).view.emb j) 0) := by
    funext k
    show V c main_arg0 (((cfg0.win 0).blk t).view.emb (ix2 (j 0) k)) = V c main_arg0 (ix2 ((((cfg0.win 9).blk t).view.emb j) 0) k)
    refine congrArg (V c main_arg0) ?_
    funext a; apply Fin.ext
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 128 + 1 * k.val = k.val; omega
  have hq : (j 1 : Fin 128) = (((cfg0.win 9).blk t).view.emb j) 1 := by
    apply Fin.ext
    show (j 1).val = win0_9.index t (1 : Fin 2) * 128 + 1 * (j 1).val; omega
  have hmean : row1 (iblk0 V c 3 t) = row1 (V c main_v0) := by
    funext k
    show V c main_v0 (((cfg0.win 3).blk t).view.emb (ix2 (0 : Fin 1) k)) = V c main_v0 (ix2 (0 : Fin 1) k)
    refine congrArg (V c main_v0) ?_
    funext a; apply Fin.ext
    match a with
    | ⟨0, _⟩ => show win0_3.index t (0 : Fin 2) * 1 + 1 * 0 = 0; omega
    | ⟨1, _⟩ => show win0_3.index t (1 : Fin 2) * 128 + 1 * k.val = k.val; omega
  have hvar : row1 (iblk0 V c 4 t) = row1 (V c main_v1) := by
    funext k
    show V c main_v1 (((cfg0.win 4).blk t).view.emb (ix2 (0 : Fin 1) k)) = V c main_v1 (ix2 (0 : Fin 1) k)
    refine congrArg (V c main_v1) ?_
    funext a; apply Fin.ext
    match a with
    | ⟨0, _⟩ => show win0_4.index t (0 : Fin 2) * 1 + 1 * 0 = 0; omega
    | ⟨1, _⟩ => show win0_4.index t (1 : Fin 2) * 128 + 1 * k.val = k.val; omega
  have hgamma : row1 (iblk0 V c 5 t) = row1 (V c main_v2) := by
    funext k
    show V c main_v2 (((cfg0.win 5).blk t).view.emb (ix2 (0 : Fin 1) k)) = V c main_v2 (ix2 (0 : Fin 1) k)
    refine congrArg (V c main_v2) ?_
    funext a; apply Fin.ext
    match a with
    | ⟨0, _⟩ => show win0_5.index t (0 : Fin 2) * 1 + 1 * 0 = 0; omega
    | ⟨1, _⟩ => show win0_5.index t (1 : Fin 2) * 128 + 1 * k.val = k.val; omega
  have hbeta : row1 (iblk0 V c 6 t) = row1 (V c main_v3) := by
    funext k
    show V c main_v3 (((cfg0.win 6).blk t).view.emb (ix2 (0 : Fin 1) k)) = V c main_v3 (ix2 (0 : Fin 1) k)
    refine congrArg (V c main_v3) ?_
    funext a; apply Fin.ext
    match a with
    | ⟨0, _⟩ => show win0_6.index t (0 : Fin 2) * 1 + 1 * 0 = 0; omega
    | ⟨1, _⟩ => show win0_6.index t (1 : Fin 2) * 128 + 1 * k.val = k.val; omega
  have hbias : row1 (iblk0 V c 7 t) = row1 (V c main_v4) := by
    funext k
    show V c main_v4 (((cfg0.win 7).blk t).view.emb (ix2 (0 : Fin 1) k)) = V c main_v4 (ix2 (0 : Fin 1) k)
    refine congrArg (V c main_v4) ?_
    funext a; apply Fin.ext
    match a with
    | ⟨0, _⟩ => show win0_7.index t (0 : Fin 2) * 1 + 1 * 0 = 0; omega
    | ⟨1, _⟩ => show win0_7.index t (1 : Fin 2) * 128 + 1 * k.val = k.val; omega
  have hW : (iblk0 V c 2 t : Mat 128 128) = V c main_arg8 := by
    funext y
    show V c main_arg8 (((cfg0.win 2).blk t).view.emb y) = V c main_arg8 y
    refine congrArg (V c main_arg8) ?_
    funext a; apply Fin.ext
    have hy0 : (y 0).val < 128 := (y 0).isLt
    have hy1 : (y 1).val < 128 := (y 1).isLt
    match a with
    | ⟨0, _⟩ => show win0_2.index t (0 : Fin 2) * 128 + 1 * (y 0).val = (y 0).val; omega
    | ⟨1, _⟩ => show win0_2.index t (1 : Fin 2) * 128 + 1 * (y 1).val = (y 1).val; omega
  show lin (rowOf (n := 5000) (iblk0 V c 0 t) (j 0)) (row1 (iblk0 V c 3 t)) (row1 (iblk0 V c 4 t)) (row1 (iblk0 V c 5 t)) (row1 (iblk0 V c 6 t))
        (iblk0 V c 2 t : Mat 128 128) (j 1 : Fin 128) + row1 (iblk0 V c 7 t) (j 1 : Fin 128)
      = lin (rowOf (n := 100000) (V c main_arg0) ((((cfg0.win 9).blk t).view.emb j) 0)) (row1 (V c main_v0)) (row1 (V c main_v1)) (row1 (V c main_v2)) (row1 (V c main_v3))
        (V c main_arg8) ((((cfg0.win 9).blk t).view.emb j) 1) + row1 (V c main_v4) ((((cfg0.win 9).blk t).view.emb j) 1)
  rw [hx, hmean, hvar, hgamma, hbeta, hbias, hW, ← hq]

/-- An index of a result array is in point t's block iff each coordinate is in the block's range on its axis. -/
theorem mem_blk8 (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v6_0).slice (win0_8.rect t)).set ↔ _
  rw [View.set_slice_whole, Rect.mem_set_unit]
  exact Iff.rfl

theorem mem_blk9 (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v6_1).slice (win0_9.rect t)).set ↔ _
  rw [View.set_slice_whole, Rect.mem_set_unit]
  exact Iff.rfl

/-- Row p lies in the block of point p / 5000. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨x0, x1, w10, w11, w20, w21, m0, m1, v0, v1, g0, g1, b0, b1, s0, s1, o80, o81, o90, o91⟩ := idx_facts t
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨x0, x1, w10, w11, w20, w21, m0, m1, v0, v1, g0, g1, b0, b1, s0, s1, o80, o81, o90, o91⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The first result array after the region. -/
theorem final8 (c : Dev nD) :
    (dat0 V c).arrAt 8 cfg0.N
      = linAll (n := 100000) (V c main_arg0) (V c main_arg2) (row1 (V c main_v0)) (row1 (V c main_v1)) (row1 (V c main_v2)) (row1 (V c main_v3)) :=
  (dat0 V c).arrAt_eq_of_cover 8 _ (fun t _ => flushed8_eq V c t) cover8

/-- The second result array after the region. -/
theorem final9 (c : Dev nD) :
    (dat0 V c).arrAt 9 cfg0.N
      = residAll (n := 100000) (V c main_arg0) (V c main_arg8) (row1 (V c main_v0)) (row1 (V c main_v1)) (row1 (V c main_v2)) (row1 (V c main_v3)) (row1 (V c main_v4)) :=
  (dat0 V c).arrAt_eq_of_cover 9 _ (fun t _ => flushed9_eq V c t) cover9

end Cert.KernelIdeal.PreprocessRegion

end
-- ==== Proof.Region1.lean ====
/-
  The combine region's output array, for any contents the region is entered with.

  Point t of the 20-point grid reads rows 5000·t … 5000·t + 4999 of the scattered array and of the residual array
  and the one bias row, and writes the same rows of the result: block t of the result is block t of `combine` of
  the whole arrays, and the 20 blocks cover the result, so the array ends at `combine` of the entry contents.
-/
import proofs.«156173_j35983236006067_1_alg».proof.Proof.Gen.KernelIdeal.Frame
import proofs.«156173_j35983236006067_1_alg».proof.Proof.BodyValue
import Idealize.ShloMosaic.Lib.Pipeline.Value

set_option maxRecDepth 16384

noncomputable section

namespace Cert.KernelIdeal.CombineRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GcnLayer

variable (V : (c : Dev nD) → (b : Ref sig .tc) → Buf (Elt Ideal) ((c : Thread nD τ).loc b))

theorem hz : (![0, 0] : Fin 2 → Nat) = fun _ => 0 := funext fun a => by fin_cases a <;> rfl

/-- The last stage at one entry: the scattered value s, the bias b and the residual r. -/
def outAt (s b r : EReal) : EReal := leaky ((s + b) + r)

/-- The printed index maps over the grid: the two row-blocked inputs and the output sit at block (t, 0), the bias
    row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `combine` of the arrays as the region finds them. -/
theorem flushed3_eq (c : Dev nD) (t : Fin cfg1.N) :
    (dat1 V c).flushed 3 t = ((cfg1.win 3).blk t).view.read (Elt Ideal)
      (combine (V c main_v46) (V c main_v6_1) (row1 (V c main_v5))) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  rw [BodyValue.out_block]
  obtain ⟨a0, a1, b0, b1, c0, c1, d0, d1⟩ := idx_facts t
  funext j
  have hj0 : (j 0).val < 5000 := (j 0).isLt
  have hj1 : (j 1).val < 128 := (j 1).isLt
  have e0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have e1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have e2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  show outAt (V c main_v46 (((cfg1.win 0).blk t).view.emb j)) (V c main_v5 (((cfg1.win 2).blk t).view.emb (ix2 (0 : Fin 1) (j 1))))
        (V c main_v6_1 (((cfg1.win 1).blk t).view.emb j))
      = outAt (V c main_v46 (((cfg1.win 3).blk t).view.emb j)) (V c main_v5 (ix2 (0 : Fin 1) ((((cfg1.win 3).blk t).view.emb j) 1)))
        (V c main_v6_1 (((cfg1.win 3).blk t).view.emb j))
  rw [e0, e1, e2]
  rfl

/-- An index of the array is in point t's block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Row p lies in the block of point p / 5000. -/
theorem cover3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨a0, a1, b0, b1, c0, c1, d0, d1⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: `combine` of the scattered array, the residual array and the bias row. -/
theorem final3 (c : Dev nD) :
    (dat1 V c).arrAt 3 cfg1.N = combine (V c main_v46) (V c main_v6_1) (row1 (V c main_v5)) :=
  (dat1 V c).arrAt_eq_of_cover 3 _ (fun t _ => flushed3_eq V c t) (cover3)

end Cert.KernelIdeal.CombineRegion

end
-- ==== Proof.Mid.lean ====
/-
  The graph stage, carried as ONE function of the first linear map's whole result and of the edge list.

  Self-loops are appended to the edge list, every node's in-degree is a scatter-add of ones, each edge is weighted
  by deg(src)^(-1/2) · deg(dst)^(-1/2), the source rows are gathered, scaled and scatter-added at their
  destinations.  Both programs apply exactly this chain to their first linear map, so it is never opened: it is
  only named, here in the reference's operations.
-/
import proofs.«156173_j35983236006067_1_alg».proof.Proof.Gen.ReferenceIdeal.Read

noncomputable section

namespace Cert.ReferenceIdeal.Graph

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Gather the rows of `xw` at the edges' sources, scale each by its edge weight, scatter-add at the destinations. -/
def mid (xw : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1700000x1_S1700000x128_1_0_0_1 (val_main_v61 (F := F)) (val_main_v62 (F := F) x1)
    (mulf (Host.gather gather_S100000x128_S1700000x1_S1700000x128_1_0_n_n_0_1_1128 xw (val_main_v56 (F := F) x1))
      (val_main_v59 (F := F) x1))

/-- The reference's scatter-add is the graph stage of its first linear map. -/
theorem ref_scatter (x0 : (⟨S100000x128, .f32⟩ : BufTy).Contents (Elt F)) (x1 : (⟨S2x1600000, .i32⟩ : BufTy).Contents (Elt F))
    (x2 : (⟨S128x128, .f32⟩ : BufTy).Contents (Elt F)) (x4 x5 x6 x7 : (⟨S128, .f32⟩ : BufTy).Contents (Elt F)) :
    val_main_v63 (F := F) x0 x1 x2 x4 x5 x6 x7 = mid (val_main_v50 (F := F) x0 x2 x4 x5 x6 x7) x1 := rfl

end Cert.ReferenceIdeal.Graph

end
-- ==== Proof.KernelValue.lean ====
/-
  The kernel program's result buffer as the layer's function of the launch memory.

  Walking back from the last boundary: the combine region leaves `combine` of the scattered array, the residual
  array and the bias row; the scattered array is the graph stage (the host operations between the two regions)
  of the first region's first result and of the edge list; the first region leaves `linAll` and `residAll` of x,
  the weights and the one-row parameter arrays; and those rows are the 128-vectors the program was launched
  with, reshaped to 1×128.
-/
import proofs.«156173_j35983236006067_1_alg».proof.Proof.Gen.KernelIdeal.Frame
import proofs.«156173_j35983236006067_1_alg».proof.Proof.Region0
import proofs.«156173_j35983236006067_1_alg».proof.Proof.Region1
import proofs.«156173_j35983236006067_1_alg».proof.Proof.Mid
import Idealize.ShloMosaic.Lib.ValueLayout
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.ShloMosaic.StableHlo
open Idealize.SL Idealize.SL.Sem
open Cert.KernelIdeal Cert.KernelIdeal.Gen GcnLayer
open Cert.ReferenceIdeal.Graph (mid)

/-! ## The host operations between the regions, over any contents -/

set_option maxHeartbeats 2000000 in
/-- The 49 operations between the regions leave, in the scatter-add's buffer, the graph stage of the first region's
    first result and of the edge list: the same operations, in the same order, as the reference's. -/
theorem after_hostOps1_v46 (W : Valuation τ sig (Elt Ideal)) :
    StableHlo.after hostOps1 W (Proc.devRef .tc main_v46)
      = mid (F := Ideal) (W (Proc.devRef .tc main_v6_0)) (W (Proc.devRef .tc main_arg1)) := by
  after_results_simp
  rfl

/-- They write neither the first region's second result nor the bias row. -/
theorem after_hostOps1_v6_1 (W : Valuation τ sig (Elt Ideal)) :
    StableHlo.after hostOps1 W (Proc.devRef .tc main_v6_1) = W (Proc.devRef .tc main_v6_1) := by
  after_results_simp
theorem after_hostOps1_v5 (W : Valuation τ sig (Elt Ideal)) :
    StableHlo.after hostOps1 W (Proc.devRef .tc main_v5) = W (Proc.devRef .tc main_v5) := by
  after_results_simp

variable (m : (ℓ : Loc nD τ sig) → Buf (Elt Ideal) ℓ) (ρ : Dev nD → PrngReg)

/-! ## Before the first region: six reshapes of 128-vectors to one row -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg8 (c : Dev nD) : V1 m ρ c main_arg8 = m ((c : Thread nD τ).loc main_arg8) := by
  show StableHlo.after hostOps0 (W0 m ρ c) (Proc.devRef .tc main_arg8) = _
  after_results

/-- A 128-vector reshaped to one row, read as a row, is the vector. -/
theorem row1_reshape (v : S128.Idx → EReal) : row1 (shapeCast S1x128 v shapeCasts_S128_S1x128) = rowV v :=
  funext fun k => shapeCast_a_1a_apply v shapeCasts_S128_S1x128 (0 : Fin 1) k

theorem V1_v0 (c : Dev nD) : row1 (V1 m ρ c main_v0) = rowV (m ((c : Thread nD τ).loc main_arg6)) := by
  have h : V1 m ρ c main_v0 = shapeCast S1x128 (m ((c : Thread nD τ).loc main_arg6)) shapeCasts_S128_S1x128 := by
    show StableHlo.after hostOps0 (W0 m ρ c) (Proc.devRef .tc main_v0) = _
    after_results
    rfl
  rw [h]; exact row1_reshape _
theorem V1_v1 (c : Dev nD) : row1 (V1 m ρ c main_v1) = rowV (m ((c : Thread nD τ).loc main_arg7)) := by
  have h : V1 m ρ c main_v1 = shapeCast S1x128 (m ((c : Thread nD τ).loc main_arg7)) shapeCasts_S128_S1x128 := by
    show StableHlo.after hostOps0 (W0 m ρ c) (Proc.devRef .tc main_v1) = _
    after_results
    rfl
  rw [h]; exact row1_reshape _
theorem V1_v2 (c : Dev nD) : row1 (V1 m ρ c main_v2) = rowV (m ((c : Thread nD τ).loc main_arg4)) := by
  have h : V1 m ρ c main_v2 = shapeCast S1x128 (m ((c : Thread nD τ).loc main_arg4)) shapeCasts_S128_S1x128 := by
    show StableHlo.after hostOps0 (W0 m ρ c) (Proc.devRef .tc main_v2) = _
    after_results
    rfl
  rw [h]; exact row1_reshape _
theorem V1_v3 (c : Dev nD) : row1 (V1 m ρ c main_v3) = rowV (m ((c : Thread nD τ).loc main_arg5)) := by
  have h : V1 m ρ c main_v3 = shapeCast S1x128 (m ((c : Thread nD τ).loc main_arg5)) shapeCasts_S128_S1x128 := by
    show StableHlo.after hostOps0 (W0 m ρ c) (Proc.devRef .tc main_v3) = _
    after_results
    rfl
  rw [h]; exact row1_reshape _
theorem V1_v4 (c : Dev nD) : row1 (V1 m ρ c main_v4) = rowV (m ((c : Thread nD τ).loc main_arg9)) := by
  have h : V1 m ρ c main_v4 = shapeCast S1x128 (m ((c : Thread nD τ).loc main_arg9)) shapeCasts_S128_S1x128 := by
    show StableHlo.after hostOps0 (W0 m ρ c) (Proc.devRef .tc main_v4) = _
    after_results
    rfl
  rw [h]; exact row1_reshape _
theorem V1_v5 (c : Dev nD) : row1 (V1 m ρ c main_v5) = rowV (m ((c : Thread nD τ).loc main_arg3)) := by
  have h : V1 m ρ c main_v5 = shapeCast S1x128 (m ((c : Thread nD τ).loc main_arg3)) shapeCasts_S128_S1x128 := by
    show StableHlo.after hostOps0 (W0 m ρ c) (Proc.devRef .tc main_v5) = _
    after_results
    rfl
  rw [h]; exact row1_reshape _

/-! ## After the first region -/

theorem W2_v6_0 (c : Dev nD) :
    W2 m ρ c (Proc.devRef .tc main_v6_0)
      = linAll (n := 100000) (m ((c : Thread nD τ).loc main_arg0)) (m ((c : Thread nD τ).loc main_arg2))
          (rowV (m ((c : Thread nD τ).loc main_arg6))) (rowV (m ((c : Thread nD τ).loc main_arg7)))
          (rowV (m ((c : Thread nD τ).loc main_arg4))) (rowV (m ((c : Thread nD τ).loc main_arg5))) := by
  refine (W2_arr m ρ c 8).trans ?_
  rw [PreprocessRegion.final8 (V1 m ρ) c, V1_arg0, V1_arg2, V1_v0, V1_v1, V1_v2, V1_v3]

theorem W2_v6_1 (c : Dev nD) :
    W2 m ρ c (Proc.devRef .tc main_v6_1)
      = residAll (n := 100000) (m ((c : Thread nD τ).loc main_arg0)) (m ((c : Thread nD τ).loc main_arg8))
          (rowV (m ((c : Thread nD τ).loc main_arg6))) (rowV (m ((c : Thread nD τ).loc main_arg7)))
          (rowV (m ((c : Thread nD τ).loc main_arg4))) (rowV (m ((c : Thread nD τ).loc main_arg5)))
          (rowV (m ((c : Thread nD τ).loc main_arg9))) := by
  refine (W2_arr m ρ c 9).trans ?_
  rw [PreprocessRegion.final9 (V1 m ρ) c, V1_arg0, V1_arg8, V1_v0, V1_v1, V1_v2, V1_v3, V1_v4]

theorem W2_arg1 (c : Dev nD) : W2 m ρ c (Proc.devRef .tc main_arg1) = m ((c : Thread nD τ).loc main_arg1) :=
  (W2_of_ne m ρ c main_arg1 (by decide)).trans (V1_arg1 m ρ c)

theorem W2_v5 (c : Dev nD) : row1 (W2 m ρ c (Proc.devRef .tc main_v5)) = rowV (m ((c : Thread nD τ).loc main_arg3)) := by
  rw [W2_of_ne m ρ c main_v5 (by decide)]
  exact V1_v5 m ρ c

/-! ## The second region's entry, and the result -/

theorem V3_v46 (c : Dev nD) :
    V3 m ρ c main_v46 = mid (F := Ideal) (W2 m ρ c (Proc.devRef .tc main_v6_0)) (W2 m ρ c (Proc.devRef .tc main_arg1)) :=
  after_hostOps1_v46 (W2 m ρ c)
theorem V3_v6_1 (c : Dev nD) : V3 m ρ c main_v6_1 = W2 m ρ c (Proc.devRef .tc main_v6_1) := after_hostOps1_v6_1 (W2 m ρ c)
theorem V3_v5 (c : Dev nD) : V3 m ρ c main_v5 = W2 m ρ c (Proc.devRef .tc main_v5) := after_hostOps1_v5 (W2 m ρ c)

/-- THE KERNEL PROGRAM'S RESULT at the last boundary: the leaky rectifier of (graph stage of the first linear map +
    bias) + residual branch, of the arrays the program was launched with. -/
theorem result (c : Dev nD) :
    W4 m ρ c (Proc.devRef .tc main_v47)
      = combine (n := 100000)
          (mid (F := Ideal)
            (linAll (n := 100000) (m ((c : Thread nD τ).loc main_arg0)) (m ((c : Thread nD τ).loc main_arg2))
              (rowV (m ((c : Thread nD τ).loc main_arg6))) (rowV (m ((c : Thread nD τ).loc main_arg7)))
              (rowV (m ((c : Thread nD τ).loc main_arg4))) (rowV (m ((c : Thread nD τ).loc main_arg5))))
            (m ((c : Thread nD τ).loc main_arg1)))
          (residAll (n := 100000) (m ((c : Thread nD τ).loc main_arg0)) (m ((c : Thread nD τ).loc main_arg8))
            (rowV (m ((c : Thread nD τ).loc main_arg6))) (rowV (m ((c : Thread nD τ).loc main_arg7)))
            (rowV (m ((c : Thread nD τ).loc main_arg4))) (rowV (m ((c : Thread nD τ).loc main_arg5)))
            (rowV (m ((c : Thread nD τ).loc main_arg9))))
          (rowV (m ((c : Thread nD τ).loc main_arg3))) := by
  refine (W4_arr m ρ c 3).trans ?_
  rw [CombineRegion.final3 (V3 m ρ) c, V3_v46, V3_v6_1, V3_v5, W2_v6_0, W2_v6_1, W2_arg1, W2_v5]

end Cert.KernelIdeal.KernelValue

end
-- ==== Proof.RefValue.lean ====
/-
  The reference's result, entry by entry, is the layer's function of the arguments.

  The reference standardises every row of x (the row's sum of squares from the zero word, its square root kept above
  ε₁, the quotient, then mean, variance, scale and shift broadcast along the rows), takes the two products as sums
  over the 128 columns, applies the graph stage to the first, and adds bias, residual product and residual bias in
  that order before the leaky rectifier.  The kernel adds the residual bias to the residual product first:
  ((S + b) + R) + c = (S + b) + (R + c) is associativity of addition on the extended reals.
-/
import proofs.«156173_j35983236006067_1_alg».proof.Proof.Gen.ReferenceIdeal.Read
import proofs.«156173_j35983236006067_1_alg».proof.Proof.Spec
import proofs.«156173_j35983236006067_1_alg».proof.Proof.Mid
import Idealize.ShloMosaic.Lib.ValueIdx

noncomputable section

open scoped BigOperators

namespace Cert.ReferenceIdeal.RefValue

open Cert.ReferenceIdeal Cert.ReferenceIdeal.Gen Cert.ReferenceIdeal.Read Cert.ReferenceIdeal.Graph
open Idealize.ShloMosaic Idealize.ShloMosaic.TcCoe Idealize.SL.Sem Idealize.ShloMosaic.StableHlo Idealize.ShloMosaic.ValueIdx GcnLayer

/-- Entry (p, q) of the standardised array is the standardised entry q of row p. -/
theorem bn_entry (x0 : (⟨S100000x128, .f32⟩ : BufTy).Contents (Elt Ideal)) (x4 x5 x6 x7 : (⟨S128, .f32⟩ : BufTy).Contents (Elt Ideal)) (p : Fin 100000) (q : Fin 128) :
    val_main_v22 (F := Ideal) x0 x4 x5 x6 x7 (ix2 p q) = bnAt (rowOf (n := 100000) x0 p) (rowV x6) (rowV x7) (rowV x4) (rowV x5) q := by
  have e6 : idx_main_v6 (ix2 p q) = ix2 p (0 : Fin 1) := funext fun a => by match a with | ⟨0, _⟩ => rfl | ⟨1, _⟩ => rfl
  have e2 : idx_main_v2 (ix2 p (0 : Fin 1)) = ix1 p := funext fun a => by match a with | ⟨0, _⟩ => rfl
  have e1 : ∀ j : Fin 128, idx_main_v1 (ix1 p) j = ix2 p j := fun j => funext fun a => by match a with | ⟨0, _⟩ => rfl | ⟨1, _⟩ => rfl
  have e9 : idx_main_v9 (ix2 p q) = ix2 (0 : Fin 1) q := funext fun a => by match a with | ⟨0, _⟩ => rfl | ⟨1, _⟩ => rfl
  have e8 : idx_main_v8 (ix2 (0 : Fin 1) q) = ix1 q := funext fun a => by match a with | ⟨0, _⟩ => rfl
  have e15 : idx_main_v15 (ix2 p q) = ix2 (0 : Fin 1) q := funext fun a => by match a with | ⟨0, _⟩ => rfl | ⟨1, _⟩ => rfl
  have e14 : idx_main_v14 (ix2 (0 : Fin 1) q) = ix1 q := funext fun a => by match a with | ⟨0, _⟩ => rfl
  have e18 : idx_main_v18 (ix2 p q) = ix2 (0 : Fin 1) q := funext fun a => by match a with | ⟨0, _⟩ => rfl | ⟨1, _⟩ => rfl
  have e17 : idx_main_v17 (ix2 (0 : Fin 1) q) = ix1 q := funext fun a => by match a with | ⟨0, _⟩ => rfl
  have e21 : idx_main_v21 (ix2 p q) = ix2 (0 : Fin 1) q := funext fun a => by match a with | ⟨0, _⟩ => rfl | ⟨1, _⟩ => rfl
  have e20 : idx_main_v20 (ix2 (0 : Fin 1) q) = ix1 q := funext fun a => by match a with | ⟨0, _⟩ => rfl
  simp only [val_main_v22_apply, val_main_v19_apply, val_main_v16_apply, val_main_v10_apply, val_main_v7_apply,
    val_main_v6_apply, e6, val_main_v5_apply, val_main_v3_apply, val_main_v2_apply, e2, val_main_v1_apply, e1, val_main_v0_apply,
    val_main_cst_apply, val_main_v4_apply, val_main_cst_0_apply,
    val_main_v9_apply, e9, val_main_v8_apply, e8,
    val_main_v15_apply, e15, val_main_v14_apply, e14, val_main_v13_apply, val_main_v12_apply, val_main_v11_apply, val_main_cst_1_apply,
    val_main_v18_apply, e18, val_main_v17_apply, e17, val_main_v21_apply, e21, val_main_v20_apply, e20]
  simp only [Ideal.ofBits_def, Ideal.ofBits_zero_f32, zero_add]
  rfl

/-- A product of the standardised array with a 128×128 matrix, at (p, q). -/
theorem lin_entry (x0 : (⟨S100000x128, .f32⟩ : BufTy).Contents (Elt Ideal)) (x4 x5 x6 x7 : (⟨S128, .f32⟩ : BufTy).Contents (Elt Ideal)) (Wm : (⟨S128x128, .f32⟩ : BufTy).Contents (Elt Ideal))
    (p : Fin 100000) (q : Fin 128) :
    ∑ k : Fin 128, (val_main_v22 (F := Ideal) x0 x4 x5 x6 x7) (ix2 p k) * Wm (ix2 k q)
      = lin (rowOf (n := 100000) x0 p) (rowV x6) (rowV x7) (rowV x4) (rowV x5) Wm q := by
  unfold lin
  exact Finset.sum_congr rfl fun k _ => congrArg₂ (· * ·) (bn_entry x0 x4 x5 x6 x7 p k) rfl

/-- The reference's first product is the first linear map of every row. -/
theorem xw_all (x0 : (⟨S100000x128, .f32⟩ : BufTy).Contents (Elt Ideal)) (x2 : (⟨S128x128, .f32⟩ : BufTy).Contents (Elt Ideal)) (x4 x5 x6 x7 : (⟨S128, .f32⟩ : BufTy).Contents (Elt Ideal)) :
    val_main_v50 (F := Ideal) x0 x2 x4 x5 x6 x7 = linAll (n := 100000) x0 x2 (rowV x6) (rowV x7) (rowV x4) (rowV x5) := by
  funext i
  obtain ⟨p, q, rfl⟩ : ∃ (p : Fin 100000) (q : Fin 128), i = ix2 p q := ⟨i 0, i 1, eq_ix2 i⟩
  have el : ∀ k : Fin 128, lidx_main_v50 (ix2 p q) k = ix2 p k := fun k => funext fun a => by match a with | ⟨0, _⟩ => rfl | ⟨1, _⟩ => rfl
  have er : ∀ k : Fin 128, ridx_main_v50 (ix2 p q) k = ix2 k q := fun k => funext fun a => by match a with | ⟨0, _⟩ => rfl | ⟨1, _⟩ => rfl
  rw [val_main_v50_apply]
  simp only [el, er]
  exact lin_entry x0 x4 x5 x6 x7 x2 p q

/-- The reference's residual product at (p, q). -/
theorem resid_entry (x0 : (⟨S100000x128, .f32⟩ : BufTy).Contents (Elt Ideal)) (x4 x5 x6 x7 : (⟨S128, .f32⟩ : BufTy).Contents (Elt Ideal)) (x8 : (⟨S128x128, .f32⟩ : BufTy).Contents (Elt Ideal))
    (p : Fin 100000) (q : Fin 128) :
    val_main_v67 (F := Ideal) x0 x4 x5 x6 x7 x8 (ix2 p q) = lin (rowOf (n := 100000) x0 p) (rowV x6) (rowV x7) (rowV x4) (rowV x5) x8 q := by
  have el : ∀ k : Fin 128, lidx_main_v67 (ix2 p q) k = ix2 p k := fun k => funext fun a => by match a with | ⟨0, _⟩ => rfl | ⟨1, _⟩ => rfl
  have er : ∀ k : Fin 128, ridx_main_v67 (ix2 p q) k = ix2 k q := fun k => funext fun a => by match a with | ⟨0, _⟩ => rfl | ⟨1, _⟩ => rfl
  rw [val_main_v67_apply]
  simp only [el, er]
  exact lin_entry x0 x4 x5 x6 x7 x8 p q

/-- THE REFERENCE'S RESULT is the leaky rectifier of (graph stage of the first linear map + bias) + residual branch. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 : (⟨S128, .f32⟩ : BufTy).Contents (Elt Ideal)) :
    val_main_v76 (F := Ideal) x0 x1 x2 x3 x4 x5 x6 x7 x8 x9
      = combine (n := 100000) (mid (linAll (n := 100000) x0 x2 (rowV x6) (rowV x7) (rowV x4) (rowV x5)) x1)
          (residAll (n := 100000) x0 x8 (rowV x6) (rowV x7) (rowV x4) (rowV x5) (rowV x9)) (rowV x3) := by
  funext i
  obtain ⟨p, q, rfl⟩ : ∃ (p : Fin 100000) (q : Fin 128), i = ix2 p q := ⟨i 0, i 1, eq_ix2 i⟩
  rw [← xw_all, ← ref_scatter, combine_apply, residAll_apply]
  have e65 : idx_main_v65 (ix2 p q) = ix2 (0 : Fin 1) q := funext fun a => by match a with | ⟨0, _⟩ => rfl | ⟨1, _⟩ => rfl
  have e64 : idx_main_v64 (ix2 (0 : Fin 1) q) = ix1 q := funext fun a => by match a with | ⟨0, _⟩ => rfl
  have e70 : idx_main_v70 (ix2 p q) = ix2 (0 : Fin 1) q := funext fun a => by match a with | ⟨0, _⟩ => rfl | ⟨1, _⟩ => rfl
  have e69 : idx_main_v69 (ix2 (0 : Fin 1) q) = ix1 q := funext fun a => by match a with | ⟨0, _⟩ => rfl
  have key : val_main_v71 (F := Ideal) x0 x1 x2 x3 x4 x5 x6 x7 x8 x9 (ix2 p q)
      = (val_main_v63 (F := Ideal) x0 x1 x2 x4 x5 x6 x7 (ix2 p q) + rowV x3 q)
        + (lin (rowOf (n := 100000) x0 p) (rowV x6) (rowV x7) (rowV x4) (rowV x5) x8 q + rowV x9 q) := by
    rw [val_main_v71_apply, val_main_v68_apply, val_main_v66_apply, val_main_v65_apply, e65, val_main_v64_apply, e64,
      val_main_v70_apply, e70, val_main_v69_apply, e69, resid_entry]
    simp only [Ideal.addf_def]
    exact add_assoc _ _ _
  rw [val_main_v76_apply, val_main_v73_apply, val_main_v75_apply, key, val_main_v72_apply, val_main_cst_10_apply,
    val_main_v74_apply, val_main_cst_11_apply]
  rfl

end Cert.ReferenceIdeal.RefValue

end
-- ==== Proof.lean ====
/-
  One graph-convolution layer on 100000 nodes of 128 features: every row of x is divided by its Euclidean norm
  (kept above the f32 nearest 1e-12) and standardised with running mean and variance; the standardised rows are
  mapped by W and, for the residual branch, by rs_W plus rs_b; the first map goes through the graph stage
  (self-loops appended, each edge weighted deg(src)^(-1/2)·deg(dst)^(-1/2), source rows gathered, scaled and
  scatter-added at their destinations); the result is the leaky rectifier of (that + b) + residual.

  The kernel program does this in two grid regions of twenty row blocks each with the graph stage as host operations
  between them; the reference is one host program.  Over the extended reals the two differ only in how the last
  sum is grouped, ((S + b) + R) + c against (S + b) + (R + c): associativity.  A change of float format is the
  identity, a matrix product into a zero accumulator is the plain sum over the contracted axis on both sides, and
  the graph stage is the same chain of operations applied to equal arrays, so it is never opened.

  The frames of the two kernel programs are the generated ones; the reference's frame is its generated run with
  the result dropped; nothing was rewritten when the kernel was idealized, so the preservation claim is trivial.
-/
import proofs.«156173_j35983236006067_1_alg».proof.Defs
import proofs.«156173_j35983236006067_1_alg».proof.Proof.Gen.Kernel
import proofs.«156173_j35983236006067_1_alg».proof.Proof.Gen.Kernel.Skeleton
import proofs.«156173_j35983236006067_1_alg».proof.Proof.Gen.Kernel.Launch
import proofs.«156173_j35983236006067_1_alg».proof.Proof.Gen.Kernel.Points
import proofs.«156173_j35983236006067_1_alg».proof.Proof.Gen.Kernel.Frame
import proofs.«156173_j35983236006067_1_alg».proof.Proof.Gen.KernelIdeal
import proofs.«156173_j35983236006067_1_alg».proof.Proof.Gen.KernelIdeal.Skeleton
import proofs.«156173_j35983236006067_1_alg».proof.Proof.Gen.KernelIdeal.Launch
import proofs.«156173_j35983236006067_1_alg».proof.Proof.Gen.KernelIdeal.Points
import proofs.«156173_j35983236006067_1_alg».proof.Proof.Gen.KernelIdeal.Frame
import proofs.«156173_j35983236006067_1_alg».proof.Proof.Gen.ReferenceIdeal
import proofs.«156173_j35983236006067_1_alg».proof.Proof.Gen.ReferenceIdeal.Run
import proofs.«156173_j35983236006067_1_alg».proof.Proof.Gen.ReferenceIdeal.Read
import proofs.«156173_j35983236006067_1_alg».proof.Proof.Gen.Pre_finite_inputs
import proofs.«156173_j35983236006067_1_alg».proof.Proof.KernelRun
import proofs.«156173_j35983236006067_1_alg».proof.Proof.KernelValue
import proofs.«156173_j35983236006067_1_alg».proof.Proof.RefValue
import Idealize.ShloMosaic.Adequacy
import Idealize.ShloMosaic.Init

noncomputable section

namespace Cert.Proof

open Idealize.ShloMosaic Idealize.ShloMosaic.TcCoe Idealize.SL.Sem GcnLayer

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's function of the (agreeing) arguments in their result buffers. -/
theorem algebraic : Cert.algebraic_KernelIdeal_ReferenceIdeal := by
  intro m ρ m' ρ' _ hagree
  refine ⟨fun c => combine (n := 100000)
      (Cert.ReferenceIdeal.Graph.mid (F := Ideal)
        (linAll (n := 100000) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (rowV (m ((c.tc : Thread Cert.KernelIdeal.nD Cert.KernelIdeal.τ).loc Cert.KernelIdeal.main_arg6))) (rowV (m ((c.tc : Thread Cert.KernelIdeal.nD Cert.KernelIdeal.τ).loc Cert.KernelIdeal.main_arg7))) (rowV (m ((c.tc : Thread Cert.KernelIdeal.nD Cert.KernelIdeal.τ).loc Cert.KernelIdeal.main_arg4))) (rowV (m ((c.tc : Thread Cert.KernelIdeal.nD Cert.KernelIdeal.τ).loc Cert.KernelIdeal.main_arg5))))
        (m ((c.tc : Thread Cert.KernelIdeal.nD Cert.KernelIdeal.τ).loc Cert.KernelIdeal.main_arg1)))
      (residAll (n := 100000) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (rowV (m ((c.tc : Thread Cert.KernelIdeal.nD Cert.KernelIdeal.τ).loc Cert.KernelIdeal.main_arg6))) (rowV (m ((c.tc : Thread Cert.KernelIdeal.nD Cert.KernelIdeal.τ).loc Cert.KernelIdeal.main_arg7))) (rowV (m ((c.tc : Thread Cert.KernelIdeal.nD Cert.KernelIdeal.τ).loc Cert.KernelIdeal.main_arg4))) (rowV (m ((c.tc : Thread Cert.KernelIdeal.nD Cert.KernelIdeal.τ).loc Cert.KernelIdeal.main_arg5))) (rowV (m ((c.tc : Thread Cert.KernelIdeal.nD Cert.KernelIdeal.τ).loc Cert.KernelIdeal.main_arg9))))
      (rowV (m ((c.tc : Thread Cert.KernelIdeal.nD Cert.KernelIdeal.τ).loc Cert.KernelIdeal.main_arg3))), ?_, ?_⟩
  · exact (θ_run Cert.KernelIdeal.defs _ _).mono
      (fun _ h c => ⟨(h c).1.trans (Cert.KernelIdeal.KernelValue.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v76_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
